-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S4x128x512 : Shape := ⟨3, ![4, 128, 512]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel

variable [Facts]

def fn {F : FTy → Type} [FloatOps F] (main_arg0 : FVec F S4x512x768 .f32) (main_arg1 : IVec S4x128x512 32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  main_v3
-- ==== Kernel.lean ====
abbrev S4x512x768 : Shape := ⟨3, ![4, 512, 768]⟩
abbrev S4x128x512 : Shape := ⟨3, ![4, 128, 512]⟩
abbrev S4x512x128 : Shape := ⟨3, ![4, 512, 128]⟩
abbrev S4x128x768 : Shape := ⟨3, ![4, 128, 768]⟩
abbrev S1x512x768 : Shape := ⟨3, ![1, 512, 768]⟩
abbrev S1x512x128 : Shape := ⟨3, ![1, 512, 128]⟩
abbrev S1x128x768 : Shape := ⟨3, ![1, 128, 768]⟩
abbrev S128x768 : Shape := ⟨2, ![128, 768]⟩
abbrev S1x32x768 : Shape := ⟨3, ![1, 32, 768]⟩
abbrev S32x768 : Shape := ⟨2, ![32, 768]⟩
abbrev S1x32x128 : Shape := ⟨3, ![1, 32, 128]⟩
abbrev S32x128 : Shape := ⟨2, ![32, 128]⟩
abbrev S32x1x768 : Shape := ⟨3, ![32, 1, 768]⟩
abbrev S32x128x1 : Shape := ⟨3, ![32, 128, 1]⟩
abbrev S32x128x768 : Shape := ⟨3, ![32, 128, 768]⟩

abbrev nBuf : Space → Nat
  | .hbm => 4
  | .vmem => 7
  | .smem => 0
  | _ => 0

abbrev bufTy : (tb : Table) → Fin (tcTables nBuf tb) → BufTy
  | .hbm, ⟨0, _⟩ => ⟨S4x512x768, .f32⟩
  | .hbm, ⟨1, _⟩ => ⟨S4x128x512, .i32⟩
  | .hbm, ⟨2, _⟩ => ⟨S4x512x128, .i32⟩
  | .hbm, ⟨3, _⟩ => ⟨S4x128x768, .f32⟩
  | .local _ .vmem, ⟨0, _⟩ => ⟨S1x512x768, .f32⟩
  | .local _ .vmem, ⟨1, _⟩ => ⟨S1x512x768, .f32⟩
  | .local _ .vmem, ⟨2, _⟩ => ⟨S1x512x128, .i32⟩
  | .local _ .vmem, ⟨3, _⟩ => ⟨S1x512x128, .i32⟩
  | .local _ .vmem, ⟨4, _⟩ => ⟨S1x128x768, .f32⟩
  | .local _ .vmem, ⟨5, _⟩ => ⟨S1x128x768, .f32⟩
  | .local _ .vmem, ⟨6, _⟩ => ⟨S128x768, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c32_i32 : BitVec 32 := 32#32
  let v11 : BitVec 32 := Scalar.muli v10 c32_i32
  v11
def k0_off1 (k0_t1 : Fin k0_t1_loop.trips) : Fin 3 → Nat :=
  let c0_9 : Index := 0#32
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c32_i32 : BitVec 32 := 32#32
  let v11 : BitVec 32 := Scalar.muli v10 c32_i32
  let v12 : BitVec 32 := v11
  let v13 : Index := Scalar.indexCast v12
  let c0_10 : Index := 0#32
  ![0, v13.toNat, 0]
def k0_off2 (k0_t1 : Fin k0_t1_loop.trips) : Fin 3 → Nat :=
  let c0_11 : Index := 0#32
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c32_i32 : BitVec 32 := 32#32
  let v11 : BitVec 32 := Scalar.muli v10 c32_i32
  let v12 : BitVec 32 := v11
  let v16 : Index := Scalar.indexCast v12
  let c0_12 : Index := 0#32
  ![0, v16.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x128x512_S4x512x128_0_2_1 : S4x128x512.Transposes [0, 2, 1] S4x512x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  h_S1x32x768 : 0 < S1x32x768.numel
  shapeCasts_S1x32x768_S32x768 : S1x32x768.ShapeCasts S32x768
  h_S1x32x128 : 0 < S1x32x128.numel
  shapeCasts_S1x32x128_S32x128 : S1x32x128.ShapeCasts S32x128
  shapeCasts_S32x768_S32x1x768 : S32x768.ShapeCasts S32x1x768
  shapeCasts_S32x128_S32x128x1 : S32x128.ShapeCasts S32x128x1
  broadcasts_S32x1x768_S32x128x768 : S32x1x768.Broadcasts S32x128x768
  broadcasts_S32x128x1_S32x128x768 : S32x128x1.Broadcasts S32x128x768
  reduces_S32x128x768_S128x768 : S32x128x768.Reduces [0] S128x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x768.size a ≤ S1x512x768.size a
  k0_off2_inb : ∀ k0_t1 : Fin k0_t1_loop.trips, ∀ a, (k0_off2 k0_t1) a + S1x32x128.size a ≤ S1x512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x512x768.size a
  hwx0_0 : ∀ i : grid0.Coords, EltTy.bits .f32 = 32 ∨ (Rect.block (s := S4x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x512x128.size a
  hwx0_1 : ∀ i : grid0.Coords, EltTy.bits .i32 = 32 ∨ (Rect.block (s := S4x512x128) S1x512x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x768.size a ≤ S4x128x768.size a
  hwx0_2 : ∀ i : grid0.Coords, EltTy.bits .f32 = 32 ∨ (Rect.block (s := S4x128x768) S1x128x768.size (cc0_transform_2 i) (hinb0_2 i)).WholeWords (EltTy.packing .f32)

variable [Facts₀]

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x512x768 : Shape := ⟨3, ![4, 512, 768]⟩
abbrev S4x128x512 : Shape := ⟨3, ![4, 128, 512]⟩
abbrev S_ : Shape := ⟨0, ![]⟩
abbrev S4x1x512x768 : Shape := ⟨4, ![4, 1, 512, 768]⟩
abbrev S4x128x512x1 : Shape := ⟨4, ![4, 128, 512, 1]⟩
abbrev S4x128x512x768 : Shape := ⟨4, ![4, 128, 512, 768]⟩
abbrev S4x128x768 : Shape := ⟨3, ![4, 128, 768]⟩

abbrev nBuf : Space → Nat
  | .hbm => 16
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S4x128x512, .i32⟩
  | .hbm, ⟨2, _⟩ => ⟨S_, .i32⟩
  | .hbm, ⟨3, _⟩ => ⟨S4x128x512, .i32⟩
  | .hbm, ⟨4, _⟩ => ⟨S4x128x512, .i1⟩
  | .hbm, ⟨5, _⟩ => ⟨S4x128x512, .f32⟩
  | .hbm, ⟨6, _⟩ => ⟨S_, .f32⟩
  | .hbm, ⟨7, _⟩ => ⟨S4x128x512, .f32⟩
  | .hbm, ⟨8, _⟩ => ⟨S4x128x512, .f32⟩
  | .hbm, ⟨9, _⟩ => ⟨S4x1x512x768, .f32⟩
  | .hbm, ⟨10, _⟩ => ⟨S4x128x512x1, .f32⟩
  | .hbm, ⟨11, _⟩ => ⟨S4x128x512x768, .f32⟩
  | .hbm, ⟨12, _⟩ => ⟨S4x128x512x768, .f32⟩
  | .hbm, ⟨13, _⟩ => ⟨S4x128x512x768, .f32⟩
  | .hbm, ⟨14, _⟩ => ⟨S_, .f32⟩
  | .hbm, ⟨15, _⟩ => ⟨S4x128x768, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4x128x512 : S_.BroadcastsInDim S4x128x512 (![] : Fin 0 → Fin S4x128x512.rank)
  bcast_S4x512x768_S4x1x512x768_0_2_3 : S4x512x768.BroadcastsInDim S4x1x512x768 (![0, 2, 3] : Fin 3 → Fin S4x1x512x768.rank)
  bcast_S4x128x512_S4x128x512x1_0_1_2 : S4x128x512.BroadcastsInDim S4x128x512x1 (![0, 1, 2] : Fin 3 → Fin S4x128x512x1.rank)
  bcast_S4x1x512x768_S4x128x512x768_0_1_2_3 : S4x1x512x768.BroadcastsInDim S4x128x512x768 (![0, 1, 2, 3] : Fin 4 → Fin S4x128x512x768.rank)
  bcast_S4x128x512x1_S4x128x512x768_0_1_2_3 : S4x128x512x1.BroadcastsInDim S4x128x512x768 (![0, 1, 2, 3] : Fin 4 → Fin S4x128x512x768.rank)
  reducesTo_S4x128x512x768_S4x128x768_d2 : S4x128x512x768.ReducesTo [2] S4x128x768
  h_S_ : 0 < S_.numel

variable [Facts₀]

class Facts : Prop extends Facts₀ where

variable [Facts]
-- ==== Proof.Spec.lean ====
/-
  What both programs compute, as one function of the two argument arrays.

  `h` is a [4, 512, 768] array of extended reals (batch, token, feature) and `mk` a [4, 128, 512] array of 32-bit
  words (batch, mention, token). A mask word contributes an ADDITIVE term to every feature of its token: the finite
  stand-in -1e30 (the f32 pattern 0xF149F2CA) where the word is 0, and 0 elsewhere (`maskTerm`). The result at
  (batch b, mention q, feature d) is the maximum over the 512 tokens l of

      h (b, l, d) + maskTerm (mk (b, q, l)),

  started from the pattern 0xFF800000 (`negInf`; no proof here needs to know which extended real it denotes).

  The host program builds the mask term as a product, (mk = 0 as 0.0 / 1.0) · (-1e30); at the extended reals
  1 · x = x and 0 · x = 0 for EVERY x, infinite ones included, so the product is the same selection (`uitofp_mul`).
-/
import Idealize.ShloMosaic.PureOps.Ideal
import Idealize.ShloMosaic.Lib.ValueIdx

noncomputable section

namespace Cert.MaskedMax

open Idealize.ShloMosaic Idealize.ShloMosaic.ValueIdx

/-- The start value of every maximum of the two programs: the f32 pattern of -∞. -/
abbrev negInf : Ideal .f32 := Ideal.ofBits .f32 0xFF800000#32

/-- The pattern of +0.0 denotes zero. -/
theorem ofBits_zero : Ideal.ofBits .f32 0x00000000#32 = 0 := by simp [Ideal.ofBits, Ideal.ieee]

/-- The additive term of a mask word: -1e30 where the word is zero, 0 elsewhere. -/
def maskTerm (w : BitVec 32) : Ideal .f32 :=
  Scalar.select (IntOp.cmpi .eq w 0#32) (Ideal.ofBits .f32 0xF149F2CA#32) (Ideal.ofBits .f32 0x00000000#32)

/-- A one-bit word converted to a float (1 or 0) times `x` is `x` or zero: the product IS the selection, at
    every extended real `x`. -/
theorem uitofp_mul (c : BitVec 1) (x : Ideal .f32) :
    FloatOps.mulf (F := Ideal) (FloatOps.uitofp (F := Ideal) .f32 c) x
      = Scalar.select c x (Ideal.ofBits .f32 0x00000000#32) := by
  by_cases h : c = 1#1
  · subst h
    rw [select_one]
    show (((1#1 : BitVec 1).toNat : ℝ) : EReal) * x = x
    simp
  · have h0 := eq_zero_of_ne_one h
    subst h0
    rw [select_zero, ofBits_zero]
    show (((0#1 : BitVec 1).toNat : ℝ) : EReal) * x = 0
    simp

/-- Token `l`'s candidate for (batch b, mention q, feature d): its feature plus its mask term. -/
def cand (h : (⟨3, ![4, 512, 768]⟩ : Shape).Idx → Ideal .f32) (mk : (⟨3, ![4, 128, 512]⟩ : Shape).Idx → BitVec 32)
    (b : Fin 4) (q : Fin 128) (d : Fin 768) (l : Fin 512) : Ideal .f32 :=
  h (ix3 b l d) + maskTerm (mk (ix3 b q l))

/-- THE RESULT: at (b, q, d) the maximum over the tokens of the candidates, from `negInf`. -/
def pooled (h : (⟨3, ![4, 512, 768]⟩ : Shape).Idx → Ideal .f32) (mk : (⟨3, ![4, 128, 512]⟩ : Shape).Idx → BitVec 32) :
    (⟨3, ![4, 128, 768]⟩ : Shape).Idx → Ideal .f32 :=
  fun j => (Finset.univ : Finset (Fin 512)).fold max negInf (cand h mk (j 0) (j 1) (j 2))

end Cert.MaskedMax

end
-- ==== Proof.RefValue.lean ====
/-
  The host program computes the pooled maximum.

  Its last operation is a reduce by `max` along axis 2 of the [4, 128, 512, 768] array of candidates, from the
  scalar -∞: at the result index (b, q, d) this is the maximum over the tokens l of the array at (b, q, l, d)
  (a fold of a commutative, associative operation over one axis, in any order). That array is the sum of two
  broadcasts: the features along the new mention axis, h (b, l, d), and the mask products along the new feature axis,
  (mk (b, q, l) = 0 as a float) · (-1e30) — which is the mask term of the specification.
-/
import proofs.«164805_j73598559584945_1_alg».proof.Proof.Gen.ReferenceIdeal.Read
import proofs.«164805_j73598559584945_1_alg».proof.Proof.Spec
import Idealize.ShloMosaic.PureOps.Ideal.Laws

noncomputable section

namespace Cert.ReferenceIdeal.Pooled

open Cert.ReferenceIdeal Cert.ReferenceIdeal.Gen Cert.ReferenceIdeal.Read
open Idealize.ShloMosaic Idealize.ShloMosaic.ValueIdx Cert.MaskedMax

/-- The reduction's shapes: axis 2 of [4, 128, 512, 768] is dropped. -/
theorem red : S4x128x512x768.Reduces [2] S4x128x768 := by decide

/-- The index the reduction visits at result index `j` and token `l`, by coordinates. -/
theorem lift_eq (j : S4x128x768.Idx) (l : Fin 512) : red.lift j l = ix4 (j 0) (j 1) l (j 2) :=
  funext fun a => Fin.ext (by
    match a with
    | ⟨0, _⟩ => rfl
    | ⟨1, _⟩ => rfl
    | ⟨2, _⟩ => rfl
    | ⟨3, _⟩ => rfl)

/-- The two broadcasts of the features read the feature array at (b, l, d). -/
theorem idx_h (b : Fin 4) (q : Fin 128) (l : Fin 512) (d : Fin 768) :
    idx_main_v5 (idx_main_v7 (ix4 b q l d)) = ix3 b l d :=
  funext fun a => Fin.ext (by
    match a with
    | ⟨0, _⟩ => rfl
    | ⟨1, _⟩ => rfl
    | ⟨2, _⟩ => rfl)

/-- The two broadcasts of the mask products read the mask array at (b, q, l). -/
theorem idx_mk (b : Fin 4) (q : Fin 128) (l : Fin 512) (d : Fin 768) :
    idx_main_v6 (idx_main_v8 (ix4 b q l d)) = ix3 b q l :=
  funext fun a => Fin.ext (by
    match a with
    | ⟨0, _⟩ => rfl
    | ⟨1, _⟩ => rfl
    | ⟨2, _⟩ => rfl)

/-- The array the reduction runs over holds, at (b, q, l, d), token l's candidate. -/
theorem cand_apply (x0 : (⟨S4x512x768, .f32⟩ : BufTy).Contents (Elt Ideal)) (x1 : (⟨S4x128x512, .i32⟩ : BufTy).Contents (Elt Ideal))
    (b : Fin 4) (q : Fin 128) (l : Fin 512) (d : Fin 768) :
    val_main_v9 (F := Ideal) x0 x1 (ix4 b q l d) = cand x0 x1 b q d l := by
  rw [val_main_v9_apply, val_main_v7_apply, val_main_v5_apply, val_main_v8_apply, val_main_v6_apply, val_main_v4_apply,
    val_main_v2_apply, val_main_v1_apply, val_main_v3_apply, val_main_cst_apply, val_main_v0_apply, val_main_c_apply,
    idx_h, idx_mk, uitofp_mul]
  rfl

/-- THE REFERENCE'S RESULT is the pooled maximum of its two arguments. -/
theorem result_eq (x0 : (⟨S4x512x768, .f32⟩ : BufTy).Contents (Elt Ideal)) (x1 : (⟨S4x128x512, .i32⟩ : BufTy).Contents (Elt Ideal)) :
    val_main_v10 (F := Ideal) x0 x1 = pooled x0 x1 := by
  funext j
  unfold val_main_v10
  rw [Host.reduce_eq_fold_single FloatOps.maximumf _ _ reducesTo_S4x128x512x768_S4x128x768_d2 red h_S_ j]
  show (Finset.univ : Finset (Fin 512)).fold max negInf (val_main_v9 (F := Ideal) x0 x1 ∘ red.lift j) = _
  unfold pooled
  refine Finset.fold_congr fun l _ => ?_
  exact (congrArg (val_main_v9 (F := Ideal) x0 x1) (lift_eq j l)).trans (cand_apply x0 x1 (j 0) (j 1) l (j 2))

end Cert.ReferenceIdeal.Pooled

end
-- ==== Proof.LoopValue.lean ====
/-
  The scratch accumulator across the trips of the kernel's loop, for any float values.

  The body fills its [128, 768] scratch with -∞, runs 16 trips, each storing into the scratch a value computed from 32
  rows of the two input blocks and from the scratch's own contents, and at last copies the scratch into the output block.
  Here the contents of the scratch after the first `k` trips are given a name, `accAt k`, and shown to obey the
  recursion of the loop:

      accAt 0       = the fill,
      accAt (k + 1) = the trip's stored value of rows 32·k … 32·k + 31 of the two blocks and of accAt k,

  and the output block is the copy of `accAt 16`. Each store is through the whole scratch, so what a store leaves is
  its stored value whatever was there before.
-/
import proofs.«164805_j73598559584945_1_alg».proof.Proof.Gen.KernelIdeal.Frame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The loop runs 16 trips. -/
theorem trips_eq : k0_t1_loop.trips = 16 := by decide

variable (c : Dev nD) (i : grid0.Coords) (arg1 : Memref sig .tc .vmem S1x512x768 .f32) (harg1 : arg1.IsWhole)
  (arg2 : Memref sig .tc .vmem S1x512x128 .i32) (harg2 : arg2.IsWhole) (arg3 : Memref sig .tc .vmem S1x128x768 .f32) (harg3 : arg3.IsWhole)
  (arg4 : Memref sig .tc .vmem S128x768 .f32) (harg4 : arg4.IsWhole)
  (x0 : Vec F S1x512x768 .f32) (x1 : Vec F S1x512x128 .i32)

/-- The scratch buffer right after the fill. -/
abbrev filled : BufTy.Contents (Elt F) arg4.view.ty :=
  arg4.view.writes (Elt F) arg4.view.junk [⟨Rect.unit ![0, 0] S128x768.size inb_S128x768_S128x768_0_0, k0_pay1⟩]

/-- The scratch after the first `k` trips, read as a [128, 768] array. -/
def accAt (k : ℕ) : Vec F S128x768 .f32 :=
  arg4.view.read (Elt F) (arg4.view.writes (Elt F) (filled (F := F) arg4)
    (pb_k0_t1 (F := F) Variants.none c none i arg1 harg1 arg2 harg2 arg3 harg3 arg4 harg4 (harg1.unread x0) (harg2.unread x1) (filled (F := F) arg4) k))

/-- Before the first trip the scratch holds the fill. -/
theorem accAt_zero : accAt (F := F) c i arg1 harg1 arg2 harg2 arg3 harg3 arg4 harg4 x0 x1 0 = k0_pay1 := by
  unfold accAt
  rw [show pb_k0_t1 (F := F) Variants.none c none i arg1 harg1 arg2 harg2 arg3 harg3 arg4 harg4 (harg1.unread x0) (harg2.unread x1) (filled (F := F) arg4) 0 = [] from rfl,
    View.writes_nil]
  rw [View.read_writes_eq_canon _ _ _ (fun y => ⟨_, List.mem_singleton_self _, View.mem_set_unit_zero hz2 inb_S128x768_S128x768_0_0 y⟩), View.canon_unit_zero hz2]

/-- Trip `k` replaces the scratch by its stored value of rows 32·k … of the two blocks and of what it found there. -/
theorem accAt_succ (k : Fin k0_t1_loop.trips) :
    accAt (F := F) c i arg1 harg1 arg2 harg2 arg3 harg3 arg4 harg4 x0 x1 (k.val + 1)
      = k0_pay2 (View.ld x0 (Rect.unit (k0_off1 k) S1x32x768.size (k0_off1_inb k)))
          (View.ld x1 (Rect.unit (k0_off2 k) S1x32x128.size (k0_off2_inb k)))
          (accAt (F := F) c i arg1 harg1 arg2 harg2 arg3 harg3 arg4 harg4 x0 x1 k.val) := by
  unfold accAt
  rw [pb_k0_t1_succ, View.writes_append]
  unfold tripL_k0_t1 trip_k0_t1
  dsimp only
  rw [View.read_writes_eq_canon _ _ _ (fun y => ⟨_, List.mem_singleton_self _, View.mem_set_unit_zero hz2 inb_S128x768_S128x768_0_0 y⟩), View.canon_unit_zero hz2]
  simp only [View.readAt_eq_ld, harg1.read_unread, harg2.read_unread, View.ld_unit_zero (S := S128x768) hz2]

/-- The one piece the body leaves in the output block: the copy of the scratch after the 16 trips. -/
theorem pieces_eq :
    (kernelRun0_A (F := F) c i arg1 harg1 arg2 harg2 arg3 harg3 arg4 harg4 x0 x1).1
      = [⟨Rect.unit ![0, 0, 0] S1x128x768.size inb_S1x128x768_S1x128x768_0_0_0, k0_pay3 (accAt (F := F) c i arg1 harg1 arg2 harg2 arg3 harg3 arg4 harg4 x0 x1 16)⟩] := by
  unfold kernelRun0_A
  dsimp only
  sl_unfold_words
  rw [View.writes_append, View.readAt_eq_ld, View.ld_unit_zero (S := S128x768) hz2]
  rfl

/-- So the output block after the body is that copy. -/
theorem out_eq : out0_A_2 (F := F) c i arg1 harg1 arg2 harg2 arg3 harg3 arg4 harg4 x0 x1 = k0_pay3 (accAt (F := F) c i arg1 harg1 arg2 harg2 arg3 harg3 arg4 harg4 x0 x1 16) := by
  unfold out0_A_2
  rw [pieces_eq, View.read_writes_eq_canon _ _ _ (fun y => ⟨_, List.mem_singleton_self _, View.mem_set_unit_zero hz3 inb_S1x128x768_S1x128x768_0_0_0 y⟩), View.canon_unit_zero hz3]

end Cert.KernelIdeal.Acc

end
-- ==== Proof.ChunkValue.lean ====
/-
  One trip of the kernel's loop, read at an entry.

  A trip takes 32 tokens of the batch's features (a [1, 32, 768] piece `x`), the same 32 tokens of the transposed mask
  (a [1, 32, 128] piece `w`: token, mention) and the running maximum `acc` ([128, 768]: mention, feature), and stores

      max acc (max over the 32 tokens t of  x (t, d) + maskTerm (w (t, q)))      at (q, d).

  The features are laid along a new middle axis of extent 1 and the mask terms along a new last axis of extent 1, both
  are broadcast to [32, 128, 768], added, and the sum is reduced by `max` along axis 0 from -∞.
-/
import proofs.«164805_j73598559584945_1_alg».proof.Proof.Gen.KernelIdeal.Skeleton
import proofs.«164805_j73598559584945_1_alg».proof.Proof.Spec
import Idealize.ShloMosaic.PureOps.Ideal.Laws
import Idealize.ShloMosaic.Lib.Pipeline.Value
import Idealize.ShloMosaic.Lib.ValueLayout

noncomputable section

namespace Cert.KernelIdeal.Chunk

open Cert.KernelIdeal Cert.KernelIdeal.Gen
open Idealize.ShloMosaic Idealize.ShloMosaic.ValueIdx Cert.MaskedMax

variable {α : Type}

/-- A [1, 32, 768] piece viewed [32, 768], then [32, 1, 768], then broadcast along the middle axis: at (t, q, d) it is
    the piece at (0, t, d). -/
theorem feat_apply (x : S1x32x768.Idx → α) (t : Fin 32) (q : Fin 128) (d : Fin 768) :
    broadcastTo S32x128x768 (shapeCast S32x1x768 (shapeCast S32x768 x shapeCasts_S1x32x768_S32x768) shapeCasts_S32x768_S32x1x768)
      broadcasts_S32x1x768_S32x128x768 (ix3 t q d) = x (ix3 (0 : Fin 1) t d) := by
  rw [broadcastTo_apply _ broadcasts_S32x1x768_S32x128x768 (ix3 t q d) (ix3 t (0 : Fin 1) d) (fun a => by
      match a with
      | ⟨0, _⟩ => show t.val = if (32 : ℕ) = 1 then 0 else t.val; rw [if_neg (by decide)]
      | ⟨1, _⟩ => show 0 = if (1 : ℕ) = 1 then 0 else q.val; rw [if_pos rfl]
      | ⟨2, _⟩ => show d.val = if (768 : ℕ) = 1 then 0 else d.val; rw [if_neg (by decide)]),
    shapeCast_apply _ shapeCasts_S32x768_S32x1x768 (ix3 t (0 : Fin 1) d) (ix2 t d) (by
      rw [Shape.rowMajor_val_three, Shape.rowMajor_val_two]
      show t.val * 768 + d.val = (t.val * 1 + 0) * 768 + d.val
      omega),
    shapeCast_1ab_ab_apply]

/-- A [32, 128] array viewed [32, 128, 1] and broadcast along the last axis: at (t, q, d) it is the array at (t, q). -/
theorem lane_apply (y : S32x128.Idx → α) (t : Fin 32) (q : Fin 128) (d : Fin 768) :
    broadcastTo S32x128x768 (shapeCast S32x128x1 y shapeCasts_S32x128_S32x128x1) broadcasts_S32x128x1_S32x128x768 (ix3 t q d)
      = y (ix2 t q) := by
  rw [broadcastTo_apply _ broadcasts_S32x128x1_S32x128x768 (ix3 t q d) (ix3 t q (0 : Fin 1)) (fun a => by
      match a with
      | ⟨0, _⟩ => show t.val = if (32 : ℕ) = 1 then 0 else t.val; rw [if_neg (by decide)]
      | ⟨1, _⟩ => show q.val = if (128 : ℕ) = 1 then 0 else q.val; rw [if_neg (by decide)]
      | ⟨2, _⟩ => show 0 = if (1 : ℕ) = 1 then 0 else d.val; rw [if_pos rfl]),
    shapeCast_apply _ shapeCasts_S32x128_S32x128x1 (ix3 t q (0 : Fin 1)) (ix2 t q) (by
      rw [Shape.rowMajor_val_three, Shape.rowMajor_val_two]
      show t.val * 128 + q.val = (t.val * 128 + q.val) * 1 + 0
      omega)]

/-- The index the reduction along axis 0 visits at (q, d) and token t. -/
theorem lift_eq (q : Fin 128) (d : Fin 768) (t : Fin 32) :
    reduces_S32x128x768_S128x768.lift (ix2 q d) t = ix3 t q d :=
  funext fun a => Fin.ext (by
    match a with
    | ⟨0, _⟩ => rfl
    | ⟨1, _⟩ => rfl
    | ⟨2, _⟩ => rfl)

/-- The selection of the mask term, at token t and mention q of a trip's mask piece. -/
theorem sel_apply (w : Vec Ideal S1x32x128 .i32) (t : Fin 32) (q : Fin 128) :
    select (cmpi .eq (shapeCast S32x128 w shapeCasts_S1x32x128_S32x128) (broadcast S32x128 (0#32 : BitVec 32)))
        (broadcast S32x128 (FloatOps.ofBits (F := Ideal) .f32 0xF149F2CA#32))
        (broadcast S32x128 (FloatOps.ofBits (F := Ideal) .f32 0x00000000#32)) (ix2 t q)
      = maskTerm (w (ix3 (0 : Fin 1) t q)) := by
  rw [select_apply, broadcast_apply, broadcast_apply, Ideal.ofBits_def, Ideal.ofBits_def]
  unfold maskTerm
  refine congrArg (fun b => Scalar.select b _ _) ?_
  show IntOp.cmpi .eq (shapeCast S32x128 w shapeCasts_S1x32x128_S32x128 (ix2 t q)) (0#32 : BitVec 32) = _
  rw [shapeCast_1ab_ab_apply]

/-- The [32, 128, 768] array of a trip's candidates. -/
def cands (x : Vec Ideal S1x32x768 .f32) (w : Vec Ideal S1x32x128 .i32) : FVec Ideal S32x128x768 .f32 :=
  addf
    (broadcastTo S32x128x768 (shapeCast S32x1x768 (shapeCast S32x768 x shapeCasts_S1x32x768_S32x768) shapeCasts_S32x768_S32x1x768)
      broadcasts_S32x1x768_S32x128x768)
    (broadcastTo S32x128x768
      (shapeCast S32x128x1
        (select (cmpi .eq (shapeCast S32x128 w shapeCasts_S1x32x128_S32x128) (broadcast S32x128 (0#32 : BitVec 32)))
          (broadcast S32x128 (FloatOps.ofBits (F := Ideal) .f32 0xF149F2CA#32))
          (broadcast S32x128 (FloatOps.ofBits (F := Ideal) .f32 0x00000000#32)))
        shapeCasts_S32x128_S32x128x1)
      broadcasts_S32x128x1_S32x128x768)

/-- At (t, q, d) it holds token t's feature d plus the mask term of (t, q). -/
theorem cands_apply (x : Vec Ideal S1x32x768 .f32) (w : Vec Ideal S1x32x128 .i32) (t : Fin 32) (q : Fin 128) (d : Fin 768) :
    cands x w (ix3 t q d) = x (ix3 (0 : Fin 1) t d) + maskTerm (w (ix3 (0 : Fin 1) t q)) := by
  unfold cands
  rw [addf_apply, feat_apply, lane_apply, sel_apply]

/-- What a trip stores is the running value against the maximum of the candidates along the token axis. -/
theorem pay2_eq (x : Vec Ideal S1x32x768 .f32) (w : Vec Ideal S1x32x128 .i32) (acc : Vec Ideal S128x768 .f32) :
    k0_pay2 (F := Ideal) x w acc
      = maximumf acc (multiReduction .maximumf [0] S128x768 (cands x w) 0xFF800000#32 reduces_S32x128x768_S128x768 (.inl rfl) rfl) :=
  shapeCast_self _ _

/-- WHAT A TRIP STORES, at (q, d): the running maximum against the maximum of the trip's 32 candidates. -/
theorem pay2_apply (x : Vec Ideal S1x32x768 .f32) (w : Vec Ideal S1x32x128 .i32) (acc : Vec Ideal S128x768 .f32)
    (q : Fin 128) (d : Fin 768) :
    k0_pay2 (F := Ideal) x w acc (ix2 q d)
      = max (acc (ix2 q d))
          ((Finset.univ : Finset (Fin 32)).fold max negInf
            (fun t => x (ix3 (0 : Fin 1) t d) + maskTerm (w (ix3 (0 : Fin 1) t q)))) := by
  rw [pay2_eq, maximumf_apply]
  refine congrArg (max (acc (ix2 q d))) ?_
  refine (Ideal.multiReduction_maximumf_single (cands x w) 0xFF800000#32 reduces_S32x128x768_S128x768 (.inl rfl) rfl (ix2 q d)).trans ?_
  refine Finset.fold_congr fun t _ => ?_
  exact (congrArg (cands x w) (lift_eq q d t)).trans (cands_apply x w t q d)

end Cert.KernelIdeal.Chunk

end
-- ==== Proof.LibChunkedMax.lean ====
/-
  A maximum taken chunk by chunk.

  Over a linear order, the maximum of a start value `b` and the `N` values of a family `F` can be accumulated
  `c` values at a time: start from `b`, and at step `k` replace the running value `a` by
  `max a (max of b and the c values F (c·k), …, F (c·k + c - 1))`. After `n` steps with `c · n = N` the running value is the
  maximum of `b` and all of `F`. Nothing is asked of `b` (it need not be a bottom element): taking `b` into every
  chunk's maximum again changes nothing, because `max` is idempotent.

  The running value is carried by its universal property — `a` lies below exactly the common upper bounds of `b` and the
  values seen so far (`MaxUpTo`) — so no step has to re-associate a fold.
-/
import Mathlib.Data.Finset.Fold
import Mathlib.Data.Fintype.Basic
import Mathlib.Order.Lattice

namespace Cert.ChunkedMax

variable {α : Type*} [LinearOrder α] {N : ℕ}

/-- `a` is the maximum of `b` and the values `F l` with `l < n`: the upper bounds of `a` are exactly the common upper
    bounds of `b` and those values. -/
def MaxUpTo (b : α) (F : Fin N → α) (n : ℕ) (a : α) : Prop :=
  ∀ z, a ≤ z ↔ b ≤ z ∧ ∀ l : Fin N, l.val < n → F l ≤ z

/-- Before any value is seen the running maximum is the start value. -/
theorem maxUpTo_zero (b : α) (F : Fin N → α) : MaxUpTo b F 0 b :=
  fun _ => ⟨fun h => ⟨h, fun _ hl => absurd hl (Nat.not_lt_zero _)⟩, fun h => h.1⟩

/-- One more chunk: if `a` is the maximum up to `c · k` and `g` lists the next `c` values of `F`, then
    `max a (max of b and g)` is the maximum up to `c · (k + 1)`. -/
theorem MaxUpTo.chunk {b : α} {F : Fin N → α} {c k : ℕ} {a : α} (h : MaxUpTo b F (c * k) a) (g : Fin c → α)
    (hg : ∀ (t : Fin c) (l : Fin N), l.val = c * k + t.val → g t = F l) (hN : c * (k + 1) ≤ N) :
    MaxUpTo b F (c * (k + 1)) (max a (Finset.univ.fold max b g)) := by
  intro z
  rw [max_le_iff, h z, Finset.fold_max_le]
  constructor
  · rintro ⟨⟨hb, hlo⟩, -, hhi⟩
    refine ⟨hb, fun l hl => ?_⟩
    by_cases hlk : l.val < c * k
    · exact hlo l hlk
    · have hc : l.val - c * k < c := by rw [Nat.mul_succ] at hl; omega
      rw [← hg ⟨l.val - c * k, hc⟩ l (by show l.val = c * k + (l.val - c * k); omega)]
      exact hhi _ (Finset.mem_univ _)
  · rintro ⟨hb, hall⟩
    refine ⟨⟨hb, fun l hl => hall l (by rw [Nat.mul_succ]; omega)⟩, hb, fun t _ => ?_⟩
    have ht : t.val < c := t.isLt
    have hl : c * k + t.val < N := by rw [Nat.mul_succ] at hN; omega
    rw [hg t ⟨c * k + t.val, hl⟩ rfl]
    exact hall _ (by show c * k + t.val < c * (k + 1); rw [Nat.mul_succ]; omega)

/-- Once every value has been seen the running maximum is the maximum over the whole family. -/
theorem MaxUpTo.eq_fold {b : α} {F : Fin N → α} {a : α} (h : MaxUpTo b F N a) :
    a = Finset.univ.fold max b F := by
  apply le_antisymm
  · exact (h _).2 ⟨(Finset.le_fold_max _).2 (Or.inl le_rfl),
      fun l _ => (Finset.le_fold_max _).2 (Or.inr ⟨l, Finset.mem_univ _, le_rfl⟩)⟩
  · have ha := (h a).1 le_rfl
    exact (Finset.fold_max_le _).2 ⟨ha.1, fun l _ => ha.2 l l.isLt⟩

end Cert.ChunkedMax
-- ==== Proof.KernelValue.lean ====
/-
  The kernel's result array is the pooled maximum.

  At grid point t the body sees batch t: its feature block x₀ is rows (t, ·, ·) of the feature array, and its mask block x₁
  is rows (t, ·, ·) of the TRANSPOSED mask array (token, mention), which the host lays out before the call. After k
  trips the scratch holds, at (q, d), the maximum of -∞ and the candidates of tokens 0 … 32·k - 1 (carried by its
  universal property through the 16 trips: the chunked maximum), so after the 16th it holds the maximum over all 512
  tokens; the body copies it into the output block, which the pipeline writes back as block t of the result. The four
  blocks tile the result array.
-/
import proofs.«164805_j73598559584945_1_alg».proof.Proof.Gen.KernelIdeal.Value
import proofs.«164805_j73598559584945_1_alg».proof.Proof.LoopValue
import proofs.«164805_j73598559584945_1_alg».proof.Proof.ChunkValue
import proofs.«164805_j73598559584945_1_alg».proof.Proof.LibChunkedMax
import proofs.«164805_j73598559584945_1_alg».proof.Proof.Spec
import Idealize.ShloMosaic.Lib.ValueLayout
import Idealize.ShloMosaic.Lib.StableHlo.Run

set_option maxRecDepth 16384

noncomputable section

namespace Cert.KernelIdeal.Pooled

open Cert.KernelIdeal Cert.KernelIdeal.Gen Cert.KernelIdeal.Value Cert.KernelIdeal.Acc Cert.KernelIdeal.Chunk
open Idealize.ShloMosaic Idealize.ShloMosaic.TcCoe Idealize.SL.Sem Idealize.ShloMosaic.ValueIdx
open Cert.MaskedMax Cert.ChunkedMax
open Idealize.ShloMosaic.Pipeline (Dat)

/-! ## The rows a trip loads -/

/-- Trip k's feature piece at (0, t, d) is the block's row 32·k + t. -/
theorem ld_feat (x0 : Vec Ideal S1x512x768 .f32) (k : Fin k0_t1_loop.trips) (t : Fin 32) (d : Fin 768) (l : Fin 512)
    (hl : l.val = 32 * k.val + t.val) :
    View.ld x0 (Rect.unit (k0_off1 k) S1x32x768.size (k0_off1_inb k)) (ix3 (0 : Fin 1) t d) = x0 (ix3 (0 : Fin 1) l d) := by
  show x0 ((Rect.unit (s := S1x512x768) (k0_off1 k) S1x32x768.size (k0_off1_inb k)).idx (ix3 (0 : Fin 1) t d)) = _
  refine congrArg x0 (funext fun a => Fin.ext ?_)
  have e := k0_off1_eq k
  match a with
  | ⟨0, _⟩ => show k0_off1 k 0 + 1 * 0 = 0; rw [e]; rfl
  | ⟨1, _⟩ => show k0_off1 k 1 + 1 * t.val = l.val; rw [e, hl]; show 32 * k.val + 1 * t.val = _; omega
  | ⟨2, _⟩ => show k0_off1 k 2 + 1 * d.val = d.val; rw [e]; show 0 + 1 * d.val = d.val; omega

/-- Trip k's mask piece at (0, t, q) is the block's row 32·k + t. -/
theorem ld_mask (x1 : Vec Ideal S1x512x128 .i32) (k : Fin k0_t1_loop.trips) (t : Fin 32) (q : Fin 128) (l : Fin 512)
    (hl : l.val = 32 * k.val + t.val) :
    View.ld x1 (Rect.unit (k0_off2 k) S1x32x128.size (k0_off2_inb k)) (ix3 (0 : Fin 1) t q) = x1 (ix3 (0 : Fin 1) l q) := by
  show x1 ((Rect.unit (s := S1x512x128) (k0_off2 k) S1x32x128.size (k0_off2_inb k)).idx (ix3 (0 : Fin 1) t q)) = _
  refine congrArg x1 (funext fun a => Fin.ext ?_)
  have e := k0_off2_eq k
  match a with
  | ⟨0, _⟩ => show k0_off2 k 0 + 1 * 0 = 0; rw [e]; rfl
  | ⟨1, _⟩ => show k0_off2 k 1 + 1 * t.val = l.val; rw [e, hl]; show 32 * k.val + 1 * t.val = _; omega
  | ⟨2, _⟩ => show k0_off2 k 2 + 1 * q.val = q.val; rw [e]; show 0 + 1 * q.val = q.val; omega

/-! ## The scratch through the trips -/

/-- The fill is -∞ everywhere. -/
theorem pay1_apply (j : S128x768.Idx) : k0_pay1 (F := Ideal) j = negInf := by
  unfold k0_pay1
  rw [shapeCast_self]
  rfl

section Body

variable (c : Dev nD) (i : grid0.Coords) (arg1 : Memref sig .tc .vmem S1x512x768 .f32) (harg1 : arg1.IsWhole)
  (arg2 : Memref sig .tc .vmem S1x512x128 .i32) (harg2 : arg2.IsWhole) (arg3 : Memref sig .tc .vmem S1x128x768 .f32) (harg3 : arg3.IsWhole)
  (arg4 : Memref sig .tc .vmem S128x768 .f32) (harg4 : arg4.IsWhole)
  (x0 : Vec Ideal S1x512x768 .f32) (x1 : Vec Ideal S1x512x128 .i32)

/-- The candidates of (mention q, feature d) over the body's two blocks. -/
abbrev bcand (q : Fin 128) (d : Fin 768) : Fin 512 → Ideal .f32 :=
  fun l => x0 (ix3 (0 : Fin 1) l d) + maskTerm (x1 (ix3 (0 : Fin 1) l q))

/-- After k trips the scratch at (q, d) is the maximum of -∞ and the candidates of the first 32·k tokens. -/
theorem acc_inv (q : Fin 128) (d : Fin 768) : ∀ k : ℕ, k ≤ 16 →
    MaxUpTo negInf (bcand x0 x1 q d) (32 * k) (accAt (F := Ideal) c i arg1 harg1 arg2 harg2 arg3 harg3 arg4 harg4 x0 x1 k (ix2 q d))
  | 0, _ => by
    rw [accAt_zero, pay1_apply]
    exact maxUpTo_zero _ _
  | k + 1, hk => by
    have ih := acc_inv q d k (by omega)
    have hkt : k < k0_t1_loop.trips := by rw [trips_eq]; omega
    have e := accAt_succ (F := Ideal) c i arg1 harg1 arg2 harg2 arg3 harg3 arg4 harg4 x0 x1 ⟨k, hkt⟩
    rw [show (⟨k, hkt⟩ : Fin k0_t1_loop.trips).val + 1 = k + 1 from rfl] at e
    rw [e, pay2_apply]
    refine ih.chunk _ (fun t l hl => ?_) (by omega)
    show _ + maskTerm _ = _ + maskTerm _
    rw [ld_feat x0 ⟨k, hkt⟩ t d l hl, ld_mask x1 ⟨k, hkt⟩ t q l hl]

/-- The output block after the body, at (·, q, d): the maximum over all 512 tokens. -/
theorem out_apply (u : Fin 1) (q : Fin 128) (d : Fin 768) :
    out0_A_2 (F := Ideal) c i arg1 harg1 arg2 harg2 arg3 harg3 arg4 harg4 x0 x1 (ix3 u q d)
      = (Finset.univ : Finset (Fin 512)).fold max negInf (bcand x0 x1 q d) := by
  rw [out_eq]
  unfold k0_pay3
  rw [shapeCast_ab_1ab_apply]
  exact (acc_inv c i arg1 harg1 arg2 harg2 arg3 harg3 arg4 harg4 x0 x1 q d 16 le_rfl).eq_fold

end Body

/-! ## The blocks of a grid point -/

variable (m : (ℓ : Loc nD τ sig) → Buf (Elt Ideal) ℓ) (ρ : Dev nD → PrngReg)

/-- The printed index maps over the four grid points: every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The feature block and the mask block of point t, at their literal types. -/
abbrev hblk (c : Dev nD) (t : Fin cfg0.N) : Vec Ideal S1x512x768 .f32 := iblk m c 0 t
abbrev mblk (c : Dev nD) (t : Fin cfg0.N) : Vec Ideal S1x512x128 .i32 := iblk m c 1 t

/-- The mask array as the region finds it: the host's transpose (batch, token, mention) of the argument. -/
theorem V_mask (c : Dev nD) :
    (V m c main_v0 : S4x512x128.Idx → BitVec 32)
      = transpose S4x512x128 [0, 2, 1] (m ((c : Thread nD τ).loc main_arg1)) transposes_S4x128x512_S4x512x128_0_2_1 := by
  dsimp only [V, hostOps0]
  after_results

/-- Point t's feature block at (0, l, d) is the feature argument at (t, l, d). -/
theorem hblk_apply (c : Dev nD) (t : Fin cfg0.N) (l : Fin 512) (d : Fin 768) :
    hblk m c t (ix3 (0 : Fin 1) l d) = m ((c : Thread nD τ).loc main_arg0) (ix3 (⟨t.val, t.isLt⟩ : Fin 4) l d) := by
  show V m c main_arg0 (((cfg0.win 0).blk t).view.emb (ix3 (0 : Fin 1) l d)) = _
  rw [V_main_arg0]
  refine congrArg (m ((c : Thread nD τ).loc main_arg0)) (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 512 + 1 * l.val = l.val; omega
  | ⟨2, _⟩ => show win0_0.index t (2 : Fin 3) * 768 + 1 * d.val = d.val; omega

/-- Point t's mask block at (0, l, q) is the mask argument at (t, q, l). -/
theorem mblk_apply (c : Dev nD) (t : Fin cfg0.N) (l : Fin 512) (q : Fin 128) :
    mblk m c t (ix3 (0 : Fin 1) l q) = m ((c : Thread nD τ).loc main_arg1) (ix3 (⟨t.val, t.isLt⟩ : Fin 4) q l) := by
  show V m c main_v0 (((cfg0.win 1).blk t).view.emb (ix3 (0 : Fin 1) l q)) = _
  rw [V_mask, ← transpose_ix3_021_apply (m ((c : Thread nD τ).loc main_arg1)) transposes_S4x128x512_S4x512x128_0_2_1 (⟨t.val, t.isLt⟩ : Fin 4) l q]
  refine congrArg (transpose S4x512x128 [0, 2, 1] (m ((c : Thread nD τ).loc main_arg1)) transposes_S4x128x512_S4x512x128_0_2_1) (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 512 + 1 * l.val = l.val; omega
  | ⟨2, _⟩ => show win0_1.index t (2 : Fin 3) * 128 + 1 * q.val = q.val; omega

/-! ## From the blocks to the array -/

/-- WHAT POINT t WRITES BACK is block t of the pooled maximum of the two arguments. -/
theorem flushed_eq (c : Dev nD) (t : Fin cfg0.N) :
    (dats m 0 c).flushed 2 t
      = ((cfg0.win 2).blk t).view.read (Elt Ideal)
          (pooled (m ((c : Thread nD τ).loc main_arg0)) (m ((c : Thread nD τ).loc main_arg1))) := by
  rw [flushed2_A]
  funext y
  obtain ⟨u, q, d, rfl⟩ : ∃ (u : Fin 1) (q : Fin 128) (d : Fin 768), y = ix3 u q d := ⟨y 0, y 1, y 2, eq_ix3 y⟩
  show out0_A_2 (F := Ideal) c (grid0.coords t) (ms0_0 t) (hs0_0 t) (ms0_1 t) (hs0_1 t) (ms0_2 t) (hs0_2 t) scM0_0 (Memref.isWhole_whole _)
      (hblk m c t) (mblk m c t) (ix3 u q d)
    = pooled (m ((c : Thread nD τ).loc main_arg0)) (m ((c : Thread nD τ).loc main_arg1)) (((cfg0.win 2).blk t).view.emb (ix3 u q d))
  rw [out_apply]
  obtain ⟨-, -, -, -, -, -, e0, e1, e2⟩ := idx_facts t
  have hu : u.val = 0 := by omega
  have hidx : ((cfg0.win 2).blk t).view.emb (ix3 u q d) = ix3 (⟨t.val, t.isLt⟩ : Fin 4) q d := by
    funext a; apply Fin.ext
    match a with
    | ⟨0, _⟩ => show win0_2.index t (0 : Fin 3) * 1 + 1 * u.val = t.val; omega
    | ⟨1, _⟩ => show win0_2.index t (1 : Fin 3) * 128 + 1 * q.val = q.val; omega
    | ⟨2, _⟩ => show win0_2.index t (2 : Fin 3) * 768 + 1 * d.val = d.val; omega
  rw [hidx]
  unfold pooled
  refine Finset.fold_congr fun l _ => ?_
  show hblk m c t (ix3 (0 : Fin 1) l d) + maskTerm (mblk m c t (ix3 (0 : Fin 1) l q)) = cand _ _ _ _ _ l
  rw [hblk_apply, mblk_apply]
  rfl

/-- An index of the result array is in point t's block iff each coordinate is in the block's range on its axis. -/
theorem mem_blk (t : Fin cfg0.N) (j : S4x128x768.Idx) :
    j ∈ ((cfg0.win 2).blk t).view.set ↔ ∀ a : Fin 3, win0_2.index t a * S1x128x768.size a ≤ (j a).val ∧ (j a).val < win0_2.index t a * S1x128x768.size a + S1x128x768.size a := by
  show j ∈ ((View.whole main_v1).slice (win0_2.rect t)).set ↔ _
  rw [View.set_slice_whole, Rect.mem_set_unit]
  exact Iff.rfl

/-- Every index of the result array lies in the block of the point its batch coordinate names. -/
theorem cover (j : S4x128x768.Idx) : ∃ t : Fin cfg0.N, (cfg0.win 2).flush t = true ∧ j ∈ ((cfg0.win 2).blk t).view.set := by
  have h0 : (j 0).val < 4 := (j 0).isLt
  have h1 : (j 1).val < 128 := (j 1).isLt
  have h2 : (j 2).val < 768 := (j 2).isLt
  refine ⟨⟨(j 0).val, h0⟩, flush0_2 _, ?_⟩
  rw [mem_blk]
  obtain ⟨-, -, -, -, -, -, e0, e1, e2⟩ := idx_facts ⟨(j 0).val, h0⟩
  intro a
  match a with
  | ⟨0, _⟩ => show win0_2.index _ (0 : Fin 3) * 1 ≤ (j 0).val ∧ (j 0).val < win0_2.index _ (0 : Fin 3) * 1 + 1; rw [e0]; show (j 0).val * 1 ≤ (j 0).val ∧ (j 0).val < (j 0).val * 1 + 1; omega
  | ⟨1, _⟩ => show win0_2.index _ (1 : Fin 3) * 128 ≤ (j 1).val ∧ (j 1).val < win0_2.index _ (1 : Fin 3) * 128 + 128; omega
  | ⟨2, _⟩ => show win0_2.index _ (2 : Fin 3) * 768 ≤ (j 2).val ∧ (j 2).val < win0_2.index _ (2 : Fin 3) * 768 + 768; omega

/-- THE RESULT ARRAY after the run is the pooled maximum of the two arguments. -/
theorem final (c : Dev nD) :
    (dats m 0 c).arrAt 2 cfg0.N = pooled (m ((c : Thread nD τ).loc main_arg0)) (m ((c : Thread nD τ).loc main_arg1)) :=
  (dats m 0 c).arrAt_eq_of_cover 2 _ (fun t _ => flushed_eq m c t) cover

/-- The kernel's run: the result at the pooled maximum, the arguments unchanged. -/
theorem run : θ_run defs (onTc (τ := τ) (main (F := Ideal))) ⟨m, fun _ => 0, ρ⟩ fun r => ∀ c : Dev nD,
      r.2.mem ((c : Thread nD τ).loc main_v1) = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Pooled

end
-- ==== Proof.lean ====
/-
  Masked max-pooling of token features over mention spans: the kernel against its jnp reference, over the extended reals.

  Both programs take features h [4, 512, 768] (batch, token, feature) and mask words mk [4, 128, 512] (batch, mention,
  token) and return, at (b, q, d), the maximum over the 512 tokens l of  h (b, l, d) + maskTerm (mk (b, q, l)),  started
  from -∞, where the mask term is -1e30 for a zero word and 0 otherwise (`Cert.MaskedMax.pooled`, Proof/Spec.lean).

  The reference adds the two broadcasts and reduces by max along the token axis; its mask term is the product
  (mk = 0 as 0.0 / 1.0) · (-1e30), which at the extended reals is the same selection (Proof/RefValue.lean).
  The kernel runs one grid point per batch over the host-transposed mask: it fills a scratch with -∞, and in 16 trips of
  32 tokens replaces it by max (scratch, max over the trip's 32 candidates); the scratch after k trips is the maximum
  over the first 32·k tokens (Proof/LoopValue.lean, Proof/ChunkValue.lean, Proof/LibChunkedMax.lean), the output block
  is its copy, and the four blocks tile the result (Proof/KernelValue.lean). The two ways of taking the maximum agree
  because max is associative, commutative and idempotent; no step needs the inputs to be finite.

  The three frames: the kernel's two are the generated frame runs; the reference's is its generated run with the result
  dropped. The ideal pass rewrote nothing, so the preservation conjunct is `True`.
-/
import proofs.«164805_j73598559584945_1_alg».proof.Defs
import proofs.«164805_j73598559584945_1_alg».proof.Proof.Gen.Kernel
import proofs.«164805_j73598559584945_1_alg».proof.Proof.Gen.Kernel.Skeleton
import proofs.«164805_j73598559584945_1_alg».proof.Proof.Gen.Kernel.Loops
import proofs.«164805_j73598559584945_1_alg».proof.Proof.Gen.Kernel.Launch
import proofs.«164805_j73598559584945_1_alg».proof.Proof.Gen.Kernel.Points
import proofs.«164805_j73598559584945_1_alg».proof.Proof.Gen.Kernel.Frame
import proofs.«164805_j73598559584945_1_alg».proof.Proof.Gen.KernelIdeal
import proofs.«164805_j73598559584945_1_alg».proof.Proof.Gen.KernelIdeal.Skeleton
import proofs.«164805_j73598559584945_1_alg».proof.Proof.Gen.KernelIdeal.Loops
import proofs.«164805_j73598559584945_1_alg».proof.Proof.Gen.KernelIdeal.Launch
import proofs.«164805_j73598559584945_1_alg».proof.Proof.Gen.KernelIdeal.Points
import proofs.«164805_j73598559584945_1_alg».proof.Proof.Gen.KernelIdeal.Frame
import proofs.«164805_j73598559584945_1_alg».proof.Proof.Gen.ReferenceIdeal
import proofs.«164805_j73598559584945_1_alg».proof.Proof.Gen.Pre_finite_inputs
import proofs.«164805_j73598559584945_1_alg».proof.Proof.Gen.KernelIdeal.Value
import proofs.«164805_j73598559584945_1_alg».proof.Proof.Gen.ReferenceIdeal.Run
import proofs.«164805_j73598559584945_1_alg».proof.Proof.Gen.ReferenceIdeal.Read
import proofs.«164805_j73598559584945_1_alg».proof.Proof.RefValue
import proofs.«164805_j73598559584945_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the two arguments, both programs end with the pooled maximum of those arguments
    in their result. -/
theorem algebraic : Cert.algebraic_KernelIdeal_ReferenceIdeal := by
  intro m ρ m' ρ' _ hagree
  refine ⟨_, Cert.KernelIdeal.Pooled.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.Pooled.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
